-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) (main_arg2 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S10000x256 : Shape := ⟨2, ![10000, 256]⟩
abbrev S256x10000 : Shape := ⟨2, ![256, 10000]⟩
abbrev S256x256 : Shape := ⟨2, ![256, 256]⟩
abbrev S256x128 : Shape := ⟨2, ![256, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x256, .f32⟩
  | .local _ .vmem, ⟨0, _⟩ => ⟨S10000x128, .f32⟩
  | .local _ .vmem, ⟨1, _⟩ => ⟨S256x10000, .f32⟩
  | .local _ .vmem, ⟨2, _⟩ => ⟨S256x10000, .f32⟩
  | .local _ .vmem, ⟨3, _⟩ => ⟨S256x10000, .f32⟩
  | .local _ .vmem, ⟨4, _⟩ => ⟨S256x10000, .f32⟩
  | .local _ .vmem, ⟨5, _⟩ => ⟨S256x256, .f32⟩
  | .local _ .vmem, ⟨6, _⟩ => ⟨S256x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S256x10000_S256x10000_0_0 : ∀ a, (![0, 0] : Fin 2 → Nat) a + S256x10000.size a ≤ S256x10000.size a
  h_S256x10000 : 0 < S256x10000.numel
  inb_S256x256_S256x128_0_0 : ∀ a, (![0, 0] : Fin 2 → Nat) a + S256x128.size a ≤ S256x256.size a
  h_S256x128 : 0 < S256x128.numel
  inb_S256x256_S256x128_0_128 : ∀ a, (![0, 128] : Fin 2 → Nat) a + S256x128.size a ≤ S256x256.size a
  dot_S256x10000_S10000x128_S256x128_1_0_0_1_n_n_wf : DotDims.WF S256x10000 S10000x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x10000.size a < S10000x10000.size a
  hwx0_1 : ∀ i : grid0.Coords, EltTy.bits .f32 = 32 ∨ (Rect.unit (s := S10000x10000) (fun a => cc0_transform_1 i a * S256x10000.size a) (fun a => (Pipeline.Clip.of (cc0_transform_1 i a) (S256x10000.size a) (S10000x10000.size a)).extent (S256x10000.size a)) fun a => Pipeline.Clip.inb (Pipeline.Clip.ok_of (hstart0_1 i a))).WholeWords (EltTy.packing .f32)
  hwxs0_1 : ∀ i : grid0.Coords, EltTy.bits .f32 = 32 ∨ (Rect.unit (s := S256x10000) (fun _ => 0) (fun a => (Pipeline.Clip.of (cc0_transform_1 i a) (S256x10000.size a) (S10000x10000.size a)).extent (S256x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x10000.size a < S10000x10000.size a
  hwx0_2 : ∀ i : grid0.Coords, EltTy.bits .f32 = 32 ∨ (Rect.unit (s := S10000x10000) (fun a => cc0_transform_2 i a * S256x10000.size a) (fun a => (Pipeline.Clip.of (cc0_transform_2 i a) (S256x10000.size a) (S10000x10000.size a)).extent (S256x10000.size a)) fun a => Pipeline.Clip.inb (Pipeline.Clip.ok_of (hstart0_2 i a))).WholeWords (EltTy.packing .f32)
  hwxs0_2 : ∀ i : grid0.Coords, EltTy.bits .f32 = 32 ∨ (Rect.unit (s := S256x10000) (fun _ => 0) (fun a => (Pipeline.Clip.of (cc0_transform_2 i a) (S256x10000.size a) (S10000x10000.size a)).extent (S256x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x256.size a < S10000x256.size a
  hwx0_3 : ∀ i : grid0.Coords, EltTy.bits .f32 = 32 ∨ (Rect.unit (s := S10000x256) (fun a => cc0_transform_3 i a * S256x256.size a) (fun a => (Pipeline.Clip.of (cc0_transform_3 i a) (S256x256.size a) (S10000x256.size a)).extent (S256x256.size a)) fun a => Pipeline.Clip.inb (Pipeline.Clip.ok_of (hstart0_3 i a))).WholeWords (EltTy.packing .f32)
  hwxs0_3 : ∀ i : grid0.Coords, EltTy.bits .f32 = 32 ∨ (Rect.unit (s := S256x256) (fun _ => 0) (fun a => (Pipeline.Clip.of (cc0_transform_3 i a) (S256x256.size a) (S10000x256.size a)).extent (S256x256.size a)) fun a => (Nat.zero_add _).trans_le (Pipeline.Clip.extent_le (Pipeline.Clip.ok_of (hstart0_3 i a)))).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S256x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S256x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S256x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x128, .f32⟩
  | .hbm, ⟨4, _⟩ => ⟨S10000x128, .f32⟩
  | .hbm, ⟨5, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrame.lean ====
/-
  The frame of the word-level program: every weakly fair execution of @main terminates, nothing faults, and the
  three argument arrays end as they began.

  The program is one pipelined region over 40 grid points.  At each point the body loads three staging buffers
  whole (the feature block and the two adjacency blocks), forms two matrix products, and stores them side by side
  into the two column halves of the result's staging buffer (each store preceded by a dead load of that half).  The
  frame says nothing about values, so the pipeline's proof data are RELATIONAL with the relation that holds of
  everything: whatever the body is handed in a staging buffer, it may leave anything there.  The body obligation is
  then only that the body runs and hands each buffer back at SOME contents; the argument arrays are inputs of the
  pipeline, never written back, so they end at their entry contents, which are the launch contents.
-/
import proofs.«151842_g35588099015572_cont_8to1_b_1945_25_alg».proof.Defs
import proofs.«151842_g35588099015572_cont_8to1_b_1945_25_alg».proof.Proof.Gen.Kernel.Frame
import proofs.«151842_g35588099015572_cont_8to1_b_1945_25_alg».proof.Proof.Gen.Kernel.Skeleton
import proofs.«151842_g35588099015572_cont_8to1_b_1945_25_alg».proof.Proof.Gen.Pre_finite_inputs
import Idealize.ShloMosaic.Lib.Pipeline.Frame
import Idealize.ShloMosaic.Lib.Tactic

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body on any four whole memrefs -/

/-- The body on four whole staging memrefs, each owned at some contents: it runs — three whole loads, two matrix
    products, and per column half of the fourth memref a load and a store — and every memref comes back owned at
    some contents (the first three at what they held, the fourth at its two halves overwritten; neither is stated). -/
theorem sound_kernel (c : Dev nD) (E : Set ℕ) (i : grid0.Coords)
    (arg1 : Memref sig .tc .vmem S10000x128 .f32) (harg1 : arg1.IsWhole)
    (arg2 : Memref sig .tc .vmem S256x10000 .f32) (harg2 : arg2.IsWhole)
    (arg3 : Memref sig .tc .vmem S256x10000 .f32) (harg3 : arg3.IsWhole)
    (arg4 : Memref sig .tc .vmem S256x256 .f32) (harg4 : arg4.IsWhole)
    (x1 : Vec F S10000x128 .f32) (x2 x3 : Vec F S256x10000 .f32) (x4 : Vec F S256x256 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (iprop((∃ X, owns (c : Thread nD τ) arg1 fullShare X) ∗ (∃ X, owns (c : Thread nD τ) arg2 fullShare X)
            ∗ (∃ X, owns (c : Thread nD τ) arg3 fullShare X) ∗ (∃ X, owns (c : Thread nD τ) arg4 fullShare X)) -∗ K ⟨⟩))
      ⊢ wp frame (wpE (defs₀ (F := F)) Variants.none c none) E (cc0__gcn_body i arg1 harg1 arg2 harg2 arg3 harg3 arg4 harg4) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, Hk⟩
  sl_exec
  sl_step
  iapply Hk
  isplitl [H1]
  · iexists _, f1; isplitr; · ipureintro; rfl
    iexact H1
  isplitl [H2]
  · iexists _, f2; isplitr; · ipureintro; rfl
    iexact H2
  isplitl [H3]
  · iexists _, f3; isplitr; · ipureintro; rfl
    iexact H3
  · iexists _, _; isplitr
    swap; · iexact H4
    ipureintro; rfl

/-! ## The pipeline's proof data -/

variable (m : (ℓ : Loc nD τ sig) → Buf (Elt F) ℓ) (ρ : Dev nD → PrngReg)

/-- The relational proof data of the one pipeline on core `c`: the arrays as the region finds them; of what the body
    leaves in a staging buffer, nothing is said; the invariant the scoped rest and the generator register, which the
    body never touches; nothing owed; full shares. -/
def rdats (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-! ## The body obligation -/

/-- What the body is called with at point `t`, the windows one by one: the invariant, what the core owes, and each
    window's current staging memref owned at the contents `Y w` it was handed; -/
def bodyPre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3))

/-- and what it returns: each memref owned at some contents in the relation — here, at any. -/
def bodyPost (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X))

/-- The body at any point, whatever the staging buffers hold: `sound_kernel` at the point's memrefs; the invariant and
    what the core owes pass through unread (they are the same before and after every point). -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  iintro ⟨HΦ, Ho, H0, H1, H2, H3⟩
  iapply (sound_kernel c Set.univ (grid0.coords t) _ _ _ _ _ _ _ _ (Y 0) (Y 1) (Y 2) (Y 3) _)
  isplitl [H0]; · iexact H0
  isplitl [H1]; · iexact H1
  isplitl [H2]; · iexact H2
  isplitl [H3]; · iexact H3
  iintro ⟨⟨%X0, H0⟩, ⟨%X1, H1⟩, ⟨%X2, H2⟩, ⟨%X3, H3⟩⟩
  isplitl [HΦ]; · iexact HΦ
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  · iexists X3; isplitr; · ipureintro; trivial
    iexact H3

/-- The library's body obligation of the relational data, at every point: nothing of what the buffers may hold is used. -/
theorem body_obligation (c : Dev nD) : (rdats (F := F) m c).BodyObligation (defs₀ (F := F)) Variants.none () Set.univ := fun t Y _ => by
  rw [bigSep_W0, bigSep_W0]
  exact sound_body m c t Y

/-! ## The run and the frame -/

/-- The data lend every array whole: an output's share is full, an input's is the data's own, which is full. -/
theorem share_full (c : Dev nD) (w : Fin cfg0.W) : (rdats (F := F) m c).share w = fullShare := by
  unfold RDat.share; split <;> rfl

set_option backward.isDefEq.respectTransparency.types false in
/-- At the compiled mesh, from any memory with zero counters: every weakly fair execution of @main on the TensorCores
    terminates, and in every final state each windowed array holds contents it may hold after every write-back — an
    input array its entry contents — and every other unscoped buffer what the region found. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := share_full m)
    (howed := fun _ _ => rfl) (V := V m) (hmain := hmain m Variants.none) (hA := fun _ _ => rfl) (hΦ := fun _ _ => rfl)

/-- The frame at any float instance: the three argument arrays are the arrays of the input windows 0, 1 and 2, which
    the pipeline only fetches from, so each ends at the data's entry contents, the launch contents. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePost.arr_in h c 0 rfl).trans (V_main_arg0 m c),
      (Pipeline.RDat.FramePost.arr_in h c 1 rfl).trans (V_main_arg1 m c),
      (Pipeline.RDat.FramePost.arr_in h c 2 rfl).trans (V_main_arg2 m c)⟩) (run_main m ρ)

/-- The frame claim: at the word-level instance, under the precondition (which the frame does not use). -/
theorem frame : Cert.frame_Kernel := fun m g _ => frame_any m g

end Cert.KernelFrame

end
-- ==== Proof.BodyTriple.lean ====
/-
  What one grid step of the kernel does to its four staging blocks, for any float instance.

  A step reads the feature block `x` (the whole 10000 × 128 matrix), one 256-row strip `a₁` of the first
  square matrix and one 256-row strip `a₂` of the second, and fills the 256 × 256 result block in two
  halves: columns 0‥127 with the product of `a₁` by `x`, columns 128‥255 with the product of `a₂` by `x`.
  The two half-blocks tile the result block, so what the block holds afterwards is a function of
  the three input blocks alone (`stepResult`), whatever it held before; the input blocks are left as found.
-/
import proofs.«151842_g35588099015572_cont_8to1_b_1945_25_alg».proof.Proof.Gen.KernelIdeal.Frame
import proofs.«151842_g35588099015572_cont_8to1_b_1945_25_alg».proof.Proof.Gen.KernelIdeal.Skeleton
import Idealize.ShloMosaic.Lib.Pipeline.FrameBody
import Idealize.ShloMosaic.Lib.Tactic

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rectangles the step reads and writes: the feature block whole, a strip whole, and the left and right
    halves (128 columns each) of the result block. -/
abbrev featAll : Rect S10000x128 := Rect.unit (s := S10000x128) ![0, 0] S10000x128.size Facts₀.inb_S10000x128_S10000x128_0_0
abbrev stripAll : Rect S256x10000 := Rect.unit (s := S256x10000) ![0, 0] S256x10000.size Facts₀.inb_S256x10000_S256x10000_0_0
abbrev leftHalf : Rect S256x256 := Rect.unit (s := S256x256) ![0, 0] S256x128.size Facts₀.inb_S256x256_S256x128_0_0
abbrev rightHalf : Rect S256x256 := Rect.unit (s := S256x256) ![0, 128] S256x128.size Facts₀.inb_S256x256_S256x128_0_128

/-- The result block after a step: the right half holds the second product, the left half the first (the later
    store listed first; the halves are disjoint, so the order is immaterial). -/
def stepResult (x : Vec F S10000x128 .f32) (a₁ a₂ : Vec F S256x10000 .f32) : Vec F S256x256 .f32 :=
  View.canon [⟨rightHalf, k0_pay2 (View.ld x featAll) (View.ld a₂ stripAll)⟩,
    ⟨leftHalf, k0_pay1 (View.ld x featAll) (View.ld a₁ stripAll)⟩]

/-- The two halves tile the result block. -/
theorem halves_cover (p q : Vec F S256x128 .f32) (y : S256x256.Idx) :
    ∃ pc ∈ ([⟨rightHalf, p⟩, ⟨leftHalf, q⟩] : List (View.Piece (Elt F) S256x256 .f32)), y ∈ pc.1.set :=
  View.cover_of_tiled [⟨rightHalf, p⟩, ⟨leftHalf, q⟩] S256x128.size (by rfl) y

set_option maxHeartbeats 1000000 in
/-- One step on whole staging blocks: the three inputs at `x`, `a₁`, `a₂` and the result block at anything run to
    the inputs unchanged and the result block at `stepResult x a₁ a₂`. -/
theorem step_triple (c : Dev nD) (E : Set ℕ) (i : grid0.Coords)
    (arg1 : Memref sig .tc .vmem S10000x128 .f32) (harg1 : arg1.IsWhole)
    (arg2 : Memref sig .tc .vmem S256x10000 .f32) (harg2 : arg2.IsWhole)
    (arg3 : Memref sig .tc .vmem S256x10000 .f32) (harg3 : arg3.IsWhole)
    (arg4 : Memref sig .tc .vmem S256x256 .f32) (harg4 : arg4.IsWhole)
    (x : Vec F S10000x128 .f32) (a₁ a₂ : Vec F S256x10000 .f32) (K : PUnit → sProp 𝕄) :
    iprop(owns (c : Thread nD τ) arg1 fullShare x ∗ owns (c : Thread nD τ) arg2 fullShare a₁ ∗ owns (c : Thread nD τ) arg3 fullShare a₂
        ∗ (∃ d, owns (c : Thread nD τ) arg4 fullShare d)
        ∗ (iprop(owns (c : Thread nD τ) arg1 fullShare x ∗ owns (c : Thread nD τ) arg2 fullShare a₁ ∗ owns (c : Thread nD τ) arg3 fullShare a₂
            ∗ owns (c : Thread nD τ) arg4 fullShare (stepResult x a₁ a₂)) -∗ K ⟨⟩))
      ⊢ wp frame (wpE (defs₀ (F := F)) Variants.none c none) E (cc0__gcn_body i arg1 harg1 arg2 harg2 arg3 harg3 arg4 harg4) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (halves_cover _ _)

end Cert.KernelSide

end
-- ==== Proof.Spec.lean ====
/-
  The mathematics of this certificate, stated once over the literal shapes and without any program.

  The kernel and the reference both compute, from a feature matrix `x` (10000 × 128) and two square
  matrices `a₁`, `a₂` (10000 × 10000), the 10000 × 256 array whose left 128 columns are the product
  `a₁ · x` and whose right 128 columns are the product `a₂ · x`:

      result (r, q)       = Σ_k a₁ (r, k) · x (k, q)          for q < 128
      result (r, 128 + q) = Σ_k a₂ (r, k) · x (k, q)          for q < 128.

  Every entry is a sum over the full contracted axis of length 10000 of products of extended reals; the
  two programs take the same sum in the same order, so no law beyond re-indexing is needed and the
  finiteness of the inputs is never used.
-/
import Idealize.ShloMosaic.PureOps.Ideal
import Idealize.ShloMosaic.Lib.ValueIdx

noncomputable section

open scoped BigOperators

namespace Cert.Spec

open Idealize.ShloMosaic Idealize.ShloMosaic.ValueIdx

/-- The feature matrix's shape, an adjacency matrix's, and the result's. -/
abbrev SFeat : Shape := ⟨2, ![10000, 128]⟩
abbrev SAdj : Shape := ⟨2, ![10000, 10000]⟩
abbrev SRes : Shape := ⟨2, ![10000, 256]⟩

/-- Entry `(r, q)` of the matrix product `a · x`: the sum over the contracted axis. -/
def prodAt (x : SFeat.Idx → EReal) (a : SAdj.Idx → EReal) (r : Fin 10000) (q : Fin 128) : EReal :=
  ∑ k : Fin 10000, a (ix2 r k) * x (ix2 k q)

/-- The two products side by side: columns below 128 come from `a₁ · x`, the others from `a₂ · x`. -/
def sideBySide (x : SFeat.Idx → EReal) (a₁ a₂ : SAdj.Idx → EReal) : SRes.Idx → EReal := fun i =>
  if h : (i 1).val < 128 then prodAt x a₁ (i 0) ⟨(i 1).val, h⟩
  else prodAt x a₂ (i 0) ⟨(i 1).val - 128, by have h2 : (i 1).val < 256 := idx2_lt1 i; omega⟩

theorem sideBySide_left (x : SFeat.Idx → EReal) (a₁ a₂ : SAdj.Idx → EReal) (r : Fin 10000) (q : Fin 256) (h : q.val < 128) :
    sideBySide x a₁ a₂ (ix2 r q) = prodAt x a₁ r ⟨q.val, h⟩ := by
  unfold sideBySide; rw [dif_pos (show ((ix2 r q : SRes.Idx) 1).val < 128 from h)]

theorem sideBySide_right (x : SFeat.Idx → EReal) (a₁ a₂ : SAdj.Idx → EReal) (r : Fin 10000) (q : Fin 256) (h : 128 ≤ q.val) :
    sideBySide x a₁ a₂ (ix2 r q) = prodAt x a₂ r ⟨q.val - 128, by have := q.isLt; omega⟩ := by
  unfold sideBySide; rw [dif_neg (show ¬((ix2 r q : SRes.Idx) 1).val < 128 from by show ¬ q.val < 128; omega)]

end Cert.Spec

end
-- ==== Proof.StepValue.lean ====
/-
  The result block of one grid step, read entry by entry over the extended reals.

  At the ideal instance a matrix product into a zero accumulator is, entry by entry, the plain sum over the
  contracted axis: row `p`, column `q` of (strip · features) is Σ_k strip (p, k) · features (k, q). Hence row `p`
  of the result block depends on row `p` of the two strips only — the fact that lets the rows of the last
  strips lying past the end of the square matrices be ignored: they only reach result rows past the end of
  the result array.
-/
import proofs.«151842_g35588099015572_cont_8to1_b_1945_25_alg».proof.Proof.BodyTriple
import proofs.«151842_g35588099015572_cont_8to1_b_1945_25_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelSide

open Cert.KernelIdeal Cert.KernelIdeal.Gen
open Idealize.ShloMosaic Idealize.ShloMosaic.ValueIdx

/-! ## The operand indices of the strip-by-features product -/

theorem strip_row (i : S256x128.Idx) (κ : dot_S256x10000_S10000x128_S256x128_1_0_0_1_n_n.contr.Idx) :
    (dot_S256x10000_S10000x128_S256x128_1_0_0_1_n_n.lhsIdx i κ 0).val = (i 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem strip_col (i : S256x128.Idx) (κ : dot_S256x10000_S10000x128_S256x128_1_0_0_1_n_n.contr.Idx) :
    (dot_S256x10000_S10000x128_S256x128_1_0_0_1_n_n.lhsIdx i κ 1).val = (κ ⟨0, by decide⟩).val :=
  dot_S256x10000_S10000x128_S256x128_1_0_0_1_n_n.lhsIdx_val_of_single rfl i κ
theorem feat_row (i : S256x128.Idx) (κ : dot_S256x10000_S10000x128_S256x128_1_0_0_1_n_n.contr.Idx) :
    (dot_S256x10000_S10000x128_S256x128_1_0_0_1_n_n.rhsIdx i κ 0).val = (κ ⟨0, by decide⟩).val :=
  dot_S256x10000_S10000x128_S256x128_1_0_0_1_n_n.rhsIdx_val_of_single rfl i κ
theorem feat_col (i : S256x128.Idx) (κ : dot_S256x10000_S10000x128_S256x128_1_0_0_1_n_n.contr.Idx) :
    (dot_S256x10000_S10000x128_S256x128_1_0_0_1_n_n.rhsIdx i κ 1).val = (i 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

/-- The strip-by-features product into the zero block, at row `p` and column `q`: the sum over the 10000
    contracted positions. -/
theorem product_entry (x : FVec Ideal S10000x128 .f32) (a : FVec Ideal S256x10000 .f32) (p : Fin 256) (q : Fin 128) :
    matmul (F := Ideal) dot_S256x10000_S10000x128_S256x128_1_0_0_1_n_n none a x (constant S256x128 .f32 0x00000000#32) (ix2 p q)
      = ∑ k : Fin 10000, a (ix2 p k) * x (ix2 k q) := by
  simp only [matmul]
  rw [Ideal.matmul_constant_zero_apply, ← Equiv.sum_comp (contrEquiv1 dot_S256x10000_S10000x128_S256x128_1_0_0_1_n_n 10000 rfl rfl).symm]
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx (ix2 p q) ((contrEquiv1 dot_S256x10000_S10000x128_S256x128_1_0_0_1_n_n 10000 rfl rfl).symm k) = ix2 p k := funext fun a => Fin.ext (by
    match a with
    | ⟨0, _⟩ => exact strip_row _ _
    | ⟨1, _⟩ => exact (strip_col _ _).trans hk)
  have er : dot_S256x10000_S10000x128_S256x128_1_0_0_1_n_n.rhsIdx (ix2 p q) ((contrEquiv1 dot_S256x10000_S10000x128_S256x128_1_0_0_1_n_n 10000 rfl rfl).symm k) = ix2 k q := funext fun a => Fin.ext (by
    match a with
    | ⟨0, _⟩ => exact (feat_row _ _).trans hk
    | ⟨1, _⟩ => exact feat_col _ _)
  rw [el, er]

/-! ## The two halves of the result block -/

theorem zeros2 : (![0, 0] : Fin 2 → Nat) = fun _ => 0 := funext fun a => by fin_cases a <;> rfl

/-- The left half's payload at `(p, q)`. -/
theorem left_entry (x : Vec Ideal S10000x128 .f32) (a : Vec Ideal S256x10000 .f32) (p : Fin 256) (q : Fin 128) :
    k0_pay1 (F := Ideal) (View.ld x featAll) (View.ld a stripAll) (ix2 p q) = ∑ k : Fin 10000, a (ix2 p k) * x (ix2 k q) := by
  rw [View.ld_unit_zero (S := S10000x128) zeros2, View.ld_unit_zero (S := S256x10000) zeros2]
  unfold k0_pay1
  exact product_entry x a p q

/-- The right half's payload at `(p, q)`. -/
theorem right_entry (x : Vec Ideal S10000x128 .f32) (a : Vec Ideal S256x10000 .f32) (p : Fin 256) (q : Fin 128) :
    k0_pay2 (F := Ideal) (View.ld x featAll) (View.ld a stripAll) (ix2 p q) = ∑ k : Fin 10000, a (ix2 p k) * x (ix2 k q) := by
  rw [View.ld_unit_zero (S := S10000x128) zeros2, View.ld_unit_zero (S := S256x10000) zeros2]
  unfold k0_pay2
  exact product_entry x a p q

/-- A column below 128 of the result block lies in the left half and not in the right one. -/
theorem leftHalf_emb (p : Fin 256) (q : Fin 128) :
    leftHalf.emb (ix2 p q : S256x128.Idx) = (ix2 p ⟨q.val, by omega⟩ : S256x256.Idx) := by
  funext a; apply Fin.ext
  match a with
  | ⟨0, _⟩ => rw [Rect.emb_apply]; show 0 + 1 * p.val = p.val; omega
  | ⟨1, _⟩ => rw [Rect.emb_apply]; show 0 + 1 * q.val = q.val; omega

theorem rightHalf_emb (p : Fin 256) (q : Fin 128) :
    rightHalf.emb (ix2 p q : S256x128.Idx) = (ix2 p ⟨128 + q.val, by omega⟩ : S256x256.Idx) := by
  funext a; apply Fin.ext
  match a with
  | ⟨0, _⟩ => rw [Rect.emb_apply]; show 0 + 1 * p.val = p.val; omega
  | ⟨1, _⟩ => rw [Rect.emb_apply]; show 128 + 1 * q.val = 128 + q.val; omega

theorem not_mem_rightHalf (p : Fin 256) (q : Fin 256) (h : q.val < 128) : (ix2 p q : S256x256.Idx) ∉ rightHalf.set := by
  intro hm
  have h1 : (![0, 128] : Fin 2 → Nat) 1 ≤ ((ix2 p q : S256x256.Idx) 1 : Nat) := ((Rect.mem_set_unit.mp hm) 1).1
  have h2 : (128 : Nat) ≤ q.val := h1
  omega

/-- Two half-blocks side by side, read at a column of the left half: the left one's entry. -/
theorem halves_at_left (P Q : Vec Ideal S256x128 .f32) (p : Fin 256) (q : Fin 256) (h : q.val < 128) :
    View.canon [(⟨rightHalf, P⟩ : View.Piece (Elt Ideal) S256x256 .f32), ⟨leftHalf, Q⟩] (ix2 p q) = Q (ix2 p (⟨q.val, h⟩ : Fin 128)) := by
  rw [View.canon_cons_of_not_mem (⟨rightHalf, P⟩ : View.Piece (Elt Ideal) S256x256 .f32) [⟨leftHalf, Q⟩] (y := ix2 p q) (not_mem_rightHalf p q h)]
  have e : (ix2 p q : S256x256.Idx) = leftHalf.emb (ix2 p (⟨q.val, h⟩ : Fin 128) : S256x128.Idx) := (leftHalf_emb p ⟨q.val, h⟩).symm
  rw [e, View.canon_cons_emb]

/-- … and at a column of the right half: the right one's entry. -/
theorem halves_at_right (P Q : Vec Ideal S256x128 .f32) (p : Fin 256) (q : Fin 256) (h : 128 ≤ q.val) :
    View.canon [(⟨rightHalf, P⟩ : View.Piece (Elt Ideal) S256x256 .f32), ⟨leftHalf, Q⟩] (ix2 p q)
      = P (ix2 p (⟨q.val - 128, by have := q.isLt; omega⟩ : Fin 128)) := by
  have e : (ix2 p q : S256x256.Idx) = rightHalf.emb (ix2 p (⟨q.val - 128, by have := q.isLt; omega⟩ : Fin 128) : S256x128.Idx) := by
    rw [rightHalf_emb]; congr 1; apply Fin.ext; show q.val = 128 + (q.val - 128); omega
  rw [e, View.canon_cons_emb]

/-- Entry `(p, q)`, `q < 128`, of the result block after a step. -/
theorem stepResult_left (x : Vec Ideal S10000x128 .f32) (a₁ a₂ : Vec Ideal S256x10000 .f32) (p : Fin 256) (q : Fin 256) (h : q.val < 128) :
    stepResult (F := Ideal) x a₁ a₂ (ix2 p q) = ∑ k : Fin 10000, a₁ (ix2 p k) * x (ix2 k (⟨q.val, h⟩ : Fin 128)) := by
  unfold stepResult
  exact (halves_at_left _ _ p q h).trans (left_entry x a₁ p ⟨q.val, h⟩)

/-- Entry `(p, q)`, `128 ≤ q`, of the result block after a step. -/
theorem stepResult_right (x : Vec Ideal S10000x128 .f32) (a₁ a₂ : Vec Ideal S256x10000 .f32) (p : Fin 256) (q : Fin 256) (h : 128 ≤ q.val) :
    stepResult (F := Ideal) x a₁ a₂ (ix2 p q)
      = ∑ k : Fin 10000, a₂ (ix2 p k) * x (ix2 k (⟨q.val - 128, by have := q.isLt; omega⟩ : Fin 128)) := by
  unfold stepResult
  exact (halves_at_right _ _ p q h).trans (right_entry x a₂ p ⟨q.val - 128, by have := q.isLt; omega⟩)

/-- Row `p` of the result block is row `r` of the two products side by side as soon as row `p` of each strip is
    row `r` of its square matrix — whatever the strips' other rows hold. -/
theorem stepResult_row (x : Vec Ideal S10000x128 .f32) (a₁ a₂ : Vec Ideal S256x10000 .f32)
    (A₁ A₂ : Cert.Spec.SAdj.Idx → EReal) (p : Fin 256) (r : Fin 10000)
    (h₁ : ∀ k : Fin 10000, a₁ (ix2 p k) = A₁ (ix2 r k)) (h₂ : ∀ k : Fin 10000, a₂ (ix2 p k) = A₂ (ix2 r k)) (q : Fin 256) :
    stepResult (F := Ideal) x a₁ a₂ (ix2 p q) = Cert.Spec.sideBySide x A₁ A₂ (ix2 r q) := by
  by_cases h : q.val < 128
  · rw [stepResult_left x a₁ a₂ p q h, Cert.Spec.sideBySide_left x A₁ A₂ r q h]
    unfold Cert.Spec.prodAt
    exact Finset.sum_congr rfl fun k _ => by rw [h₁ k]
  · rw [stepResult_right x a₁ a₂ p q (by omega), Cert.Spec.sideBySide_right x A₁ A₂ r q (by omega)]
    unfold Cert.Spec.prodAt
    exact Finset.sum_congr rfl fun k _ => by rw [h₂ k]

end Cert.KernelSide

end
-- ==== Proof.BlockFacts.lean ====
/-
  Where the kernel's blocks sit.

  The kernel walks a grid of 40 points. At point `t` each of the two square matrices is read through a block of
  256 rows and all 10000 columns at block index `(t, 0)`, and the result is written through a block of 256 rows
  and all 256 columns at block index `(t, 0)`. Since 10000 = 39 · 256 + 16, the blocks at `t < 39` lie inside the
  arrays and the last one, `t = 39`, is cut to its first 16 rows. In one formula: block `t` holds the rows from
  `256 t` up to, not including, `min 10000 (256 (t + 1))`; the three windows are cut alike on the row axis and
  not at all on the column axis.

  Consequently the result's blocks cover the result: row `r` lies in block `r / 256`, and every block is written
  back.
-/
import proofs.«151842_g35588099015572_cont_8to1_b_1945_25_alg».proof.Proof.Gen.KernelIdeal.Frame
import Idealize.ShloMosaic.Lib.Pipeline.Value
import Idealize.ShloMosaic.Lib.ValueIdx

noncomputable section

namespace Cert.KernelSide

open Idealize.ShloMosaic
open Cert.KernelIdeal Cert.KernelIdeal.Gen

/-- At every grid point `t`: the three moving windows sit at block index `(t, 0)`; on the row axis the two
    input blocks have the result block's (possibly cut) height; on the column axis no block is cut; and the
    result block's rows end at `min 10000 (256 (t + 1))`. Each of the forty points gives a closed arithmetic fact. -/
theorem block_places : ∀ t : Fin cfg0.N,
      win0_1.index t (0 : Fin 2) = t.val ∧ win0_1.index t (1 : Fin 2) = 0 ∧ win0_2.index t (0 : Fin 2) = t.val ∧ win0_2.index t (1 : Fin 2) = 0
      ∧ win0_3.index t (0 : Fin 2) = t.val ∧ win0_3.index t (1 : Fin 2) = 0
      ∧ win0_1.xsize (grid0.coords t) (0 : Fin 2) = win0_3.xsize (grid0.coords t) (0 : Fin 2) ∧ win0_2.xsize (grid0.coords t) (0 : Fin 2) = win0_3.xsize (grid0.coords t) (0 : Fin 2)
      ∧ win0_1.xsize (grid0.coords t) (1 : Fin 2) = 10000 ∧ win0_2.xsize (grid0.coords t) (1 : Fin 2) = 10000 ∧ win0_3.xsize (grid0.coords t) (1 : Fin 2) = 256
      ∧ t.val * 256 + win0_3.xsize (grid0.coords t) (0 : Fin 2) = min 10000 ((t.val + 1) * 256) :=
  (by decide +kernel : ∀ t : Fin grid0.N, _)

/-- Every entry `(r, q)` of the result lies in a block that is written back: the block at `t = r / 256`. -/
theorem result_blocks_cover (i : S10000x256.Idx) : ∃ t : Fin cfg0.N, (cfg0.win 3).flush t = true ∧ i ∈ ((cfg0.win 3).blk t).view.set := by
  have hi : (i 0).val < 10000 := (i 0).isLt
  have hi1 : (i 1).val < 256 := (i 1).isLt
  have ht : (i 0).val / 256 < 40 := by omega
  refine ⟨⟨(i 0).val / 256, ht⟩, Gen.flush0_3 _, ?_⟩
  -- the block's element set is the rectangle of the array it addresses: per axis, offset ≤ coordinate < offset + extent
  show i ∈ ((View.whole main_v0).slice (win0_3.rect (⟨(i 0).val / 256, ht⟩ : Fin grid0.N))).set
  rw [View.set_slice_whole, Rect.mem_set_unit]
  obtain ⟨-, -, -, -, p2, p3, -, -, -, -, p4, p5⟩ := block_places (⟨(i 0).val / 256, ht⟩ : Fin grid0.N)
  -- r / 256 · 256 ≤ r < (r / 256 + 1) · 256
  have hd := Nat.div_mul_le_self (i 0).val 256
  have hm := Nat.lt_div_mul_add (a := (i 0).val) (b := 256) (by omega)
  intro a
  match a with
  | ⟨0, _⟩ =>
    -- rows: 256 (r / 256) ≤ r < min 10000 (256 (r / 256 + 1))
    show win0_3.index ⟨(i 0).val / 256, ht⟩ 0 * 256 ≤ (i 0).val ∧ (i 0).val < win0_3.index ⟨(i 0).val / 256, ht⟩ 0 * 256 + win0_3.xsize (grid0.coords ⟨(i 0).val / 256, ht⟩) 0
    rw [p2]
    show (i 0).val / 256 * 256 ≤ (i 0).val ∧ (i 0).val < (i 0).val / 256 * 256 + win0_3.xsize (grid0.coords ⟨(i 0).val / 256, ht⟩) 0
    have p5' : (i 0).val / 256 * 256 + win0_3.xsize (grid0.coords ⟨(i 0).val / 256, ht⟩) 0 = min 10000 (((i 0).val / 256 + 1) * 256) := p5
    omega
  | ⟨1, _⟩ =>
    -- columns: the block spans all 256 of them
    show win0_3.index ⟨(i 0).val / 256, ht⟩ 1 * 256 ≤ (i 1).val ∧ (i 1).val < win0_3.index ⟨(i 0).val / 256, ht⟩ 1 * 256 + win0_3.xsize (grid0.coords ⟨(i 0).val / 256, ht⟩) 1
    rw [p3, p4]
    omega

end Cert.KernelSide

end
-- ==== Proof.KernelRun.lean ====
/-
  The run of the idealized kernel, with the result array named.

  The grid has 40 steps. Step `t` stages the whole feature matrix, rows 256·t ‥ 256·t + 255 of each square matrix
  (a strip) and writes rows 256·t ‥ of the result. 40 · 256 = 10240 exceeds 10000: the last strips and the last
  result block overhang their arrays by 240 rows. A fetched strip holds the matrix's rows on the rows inside the
  matrix and arbitrary values `d` on the rest; only the result block's rows inside the result array are written
  back. Because row `p` of a step's result depends on row `p` of the strips alone, the rows written back are
  rows of the two products side by side whatever `d` is, and the blocks written back cover the result array:
  the array ends holding `Cert.Spec.sideBySide` of the three argument arrays.
-/
import proofs.«151842_g35588099015572_cont_8to1_b_1945_25_alg».proof.Proof.StepValue
import proofs.«151842_g35588099015572_cont_8to1_b_1945_25_alg».proof.Proof.BlockFacts
import Idealize.ShloMosaic.Lib.Pipeline.Frame
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arrays, the target and the strips -/

/-- The feature matrix and the two square matrices as the grid finds them. -/
abbrev feat (c : Dev nD) : Vec Ideal S10000x128 .f32 := V m c main_arg0
abbrev adjA (c : Dev nD) : Vec Ideal S10000x10000 .f32 := V m c main_arg1
abbrev adjB (c : Dev nD) : Vec Ideal S10000x10000 .f32 := V m c main_arg2

/-- What the result array is shown to end holding. -/
def target (c : Dev nD) : Vec Ideal S10000x256 .f32 := Cert.Spec.sideBySide (feat m c) (adjA m c) (adjB m c)

/-- A strip as a step finds it: the square matrix's rows on the rows inside the matrix, `d` past its end. -/
abbrev stripA (c : Dev nD) (t : Fin cfg0.N) (d : Vec Ideal S256x10000 .f32) : Vec Ideal S256x10000 .f32 :=
  win0_1.fill (grid0.coords t) d (iblk m c 1 t)
abbrev stripB (c : Dev nD) (t : Fin cfg0.N) (d : Vec Ideal S256x10000 .f32) : Vec Ideal S256x10000 .f32 :=
  win0_2.fill (grid0.coords t) d (iblk m c 2 t)

/-- The values the proof data puts past the arrays' ends, where nothing reads them. -/
def pad (S : Shape) : Vec Ideal S .f32 := fun _ => (0 : EReal)

/-- The feature block is the whole feature matrix at every step. -/
theorem feat_block (c : Dev nD) (t : Fin cfg0.N) : iblk m c 0 t = feat m c := by
  funext j
  show V m c main_arg0 (((cfg0.win 0).blk t).view.emb j) = V m c main_arg0 j
  congr 1
  funext a; apply Fin.ext
  match a with
  | ⟨0, _⟩ => show 0 * 10000 + 1 * (j 0).val = (j 0).val; omega
  | ⟨1, _⟩ => show 0 * 128 + 1 * (j 1).val = (j 1).val; omega

/-- Row `p` of a fetched strip, for `p` among the rows inside the matrix, is row 256·t + p of the matrix. -/
theorem stripA_row (c : Dev nD) (t : Fin cfg0.N) (d : Vec Ideal S256x10000 .f32) (p : Fin 256)
    (hp : p.val < win0_3.xsize (grid0.coords t) (0 : Fin 2)) (r : Fin 10000) (hr : r.val = t.val * 256 + p.val) (k : Fin 10000) :
    stripA m c t d (ix2 p k) = adjA m c (ix2 r k) := by
  obtain ⟨i1r, i1c, i2r, i2c, i3r, i3c, x13, x23, x1c, x2c, x3c, hend⟩ := block_places t
  have hlt : ∀ a : Fin 2, ((ix2 p k : S256x10000.Idx) a).val < win0_1.xsize (grid0.coords t) a := fun a => by
    match a with
    | ⟨0, _⟩ => show p.val < win0_1.xsize (grid0.coords t) (0 : Fin 2); rw [x13]; exact hp
    | ⟨1, _⟩ => show k.val < win0_1.xsize (grid0.coords t) (1 : Fin 2); rw [x1c]; exact k.isLt
  let j : (win0_1.xblock (grid0.coords t)).Idx := fun a => ⟨((ix2 p k : S256x10000.Idx) a).val, hlt a⟩
  have ej : win0_1.xinj (grid0.coords t) j = (ix2 p k : S256x10000.Idx) := rfl
  show win0_1.fill (grid0.coords t) d (iblk m c 1 t) (ix2 p k) = _
  rw [← ej, Pipeline.Window.fill_xinj]
  show V m c main_arg1 (((cfg0.win 1).blk t).view.emb j) = V m c main_arg1 (ix2 r k)
  congr 1
  funext a; apply Fin.ext
  match a with
  | ⟨0, _⟩ => show win0_1.index t (0 : Fin 2) * 256 + 1 * p.val = r.val; omega
  | ⟨1, _⟩ => show win0_1.index t (1 : Fin 2) * 10000 + 1 * k.val = k.val; omega

theorem stripB_row (c : Dev nD) (t : Fin cfg0.N) (d : Vec Ideal S256x10000 .f32) (p : Fin 256)
    (hp : p.val < win0_3.xsize (grid0.coords t) (0 : Fin 2)) (r : Fin 10000) (hr : r.val = t.val * 256 + p.val) (k : Fin 10000) :
    stripB m c t d (ix2 p k) = adjB m c (ix2 r k) := by
  obtain ⟨i1r, i1c, i2r, i2c, i3r, i3c, x13, x23, x1c, x2c, x3c, hend⟩ := block_places t
  have hlt : ∀ a : Fin 2, ((ix2 p k : S256x10000.Idx) a).val < win0_2.xsize (grid0.coords t) a := fun a => by
    match a with
    | ⟨0, _⟩ => show p.val < win0_2.xsize (grid0.coords t) (0 : Fin 2); rw [x23]; exact hp
    | ⟨1, _⟩ => show k.val < win0_2.xsize (grid0.coords t) (1 : Fin 2); rw [x2c]; exact k.isLt
  let j : (win0_2.xblock (grid0.coords t)).Idx := fun a => ⟨((ix2 p k : S256x10000.Idx) a).val, hlt a⟩
  have ej : win0_2.xinj (grid0.coords t) j = (ix2 p k : S256x10000.Idx) := rfl
  show win0_2.fill (grid0.coords t) d (iblk m c 2 t) (ix2 p k) = _
  rw [← ej, Pipeline.Window.fill_xinj]
  show V m c main_arg2 (((cfg0.win 2).blk t).view.emb j) = V m c main_arg2 (ix2 r k)
  congr 1
  funext a; apply Fin.ext
  match a with
  | ⟨0, _⟩ => show win0_2.index t (0 : Fin 2) * 256 + 1 * p.val = r.val; omega
  | ⟨1, _⟩ => show win0_2.index t (1 : Fin 2) * 10000 + 1 * k.val = k.val; omega

/-- THE ROWS WRITTEN BACK at step `t` are the target's rows, whatever lies past the strips' ends. -/
theorem cut_step (c : Dev nD) (t : Fin cfg0.N) (d₁ d₂ : Vec Ideal S256x10000 .f32) :
    win0_3.cut (grid0.coords t) (stepResult (F := Ideal) (iblk m c 0 t) (stripA m c t d₁) (stripB m c t d₂))
      = (win0_3.blk t).view.read (Elt Ideal) (target m c) := by
  obtain ⟨i1r, i1c, i2r, i2c, i3r, i3c, x13, x23, x1c, x2c, x3c, hend⟩ := block_places t
  funext y
  have hy0 : (y 0).val < win0_3.xsize (grid0.coords t) (0 : Fin 2) := (y 0).isLt
  have hy1 : (y 1).val < win0_3.xsize (grid0.coords t) (1 : Fin 2) := (y 1).isLt
  have hp : (y 0).val < 256 := lt_of_lt_of_le hy0 (win0_3.xsize_le _ 0)
  have hq : (y 1).val < 256 := by rw [x3c] at hy1; exact hy1
  have hr : t.val * 256 + (y 0).val < 10000 := by
    have := Nat.min_le_left 10000 ((t.val + 1) * 256); omega
  show stepResult (F := Ideal) (iblk m c 0 t) (stripA m c t d₁) (stripB m c t d₂) (win0_3.xinj (grid0.coords t) y)
    = target m c ((win0_3.blk t).view.emb y)
  have e1 : win0_3.xinj (grid0.coords t) y = (ix2 (⟨(y 0).val, hp⟩ : Fin 256) (⟨(y 1).val, hq⟩ : Fin 256) : S256x256.Idx) := by
    funext a; apply Fin.ext
    match a with
    | ⟨0, _⟩ => rfl
    | ⟨1, _⟩ => rfl
  have e2 : (win0_3.blk t).view.emb y = (ix2 (⟨t.val * 256 + (y 0).val, hr⟩ : Fin 10000) (⟨(y 1).val, hq⟩ : Fin 256) : S10000x256.Idx) := by
    funext a; apply Fin.ext
    match a with
    | ⟨0, _⟩ => show win0_3.index t (0 : Fin 2) * 256 + 1 * (y 0).val = t.val * 256 + (y 0).val; omega
    | ⟨1, _⟩ => show win0_3.index t (1 : Fin 2) * 256 + 1 * (y 1).val = (y 1).val; omega
  rw [e1, e2, feat_block]
  unfold target
  exact stepResult_row (feat m c) (stripA m c t d₁) (stripB m c t d₂) (adjA m c) (adjB m c) ⟨(y 0).val, hp⟩ ⟨t.val * 256 + (y 0).val, hr⟩
    (fun k => stripA_row m c t d₁ ⟨(y 0).val, hp⟩ hy0 ⟨t.val * 256 + (y 0).val, hr⟩ rfl k)
    (fun k => stripB_row m c t d₂ ⟨(y 0).val, hp⟩ hy0 ⟨t.val * 256 + (y 0).val, hr⟩ rfl k) ⟨(y 1).val, hq⟩

/-! ## The proof data -/

/-- After step `t` the feature buffer holds the feature matrix, each strip buffer its strip, and the result
    buffer the target's rows 256·t ‥; past the arrays' ends the data say zero, which nothing reads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => stripA m c t (pad S256x10000)
    | ⟨2, _⟩ => stripB m c t (pad S256x10000)
    | ⟨3, _⟩ => win0_3.fill (grid0.coords t) (pad S256x256) ((win0_3.blk t).view.read (Elt Ideal) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_feat (c : Dev nD) (t : Fin cfg0.N) : (dats m 0 c).after 0 t = iblk m c 0 t := by dsimp only [dats]
theorem after_stripA (c : Dev nD) (t : Fin cfg0.N) : (dats m 0 c).after 1 t = stripA m c t (pad S256x10000) := by dsimp only [dats]
theorem after_stripB (c : Dev nD) (t : Fin cfg0.N) : (dats m 0 c).after 2 t = stripB m c t (pad S256x10000) := by dsimp only [dats]
theorem after_result (c : Dev nD) (t : Fin cfg0.N) :
    (dats m 0 c).after 3 t = win0_3.fill (grid0.coords t) (pad S256x256) ((win0_3.blk t).view.read (Elt Ideal) (target m c)) := by
  dsimp only [dats]

/-- What a step finds: the feature matrix (fetched at the first step, kept since); each strip just fetched. -/
theorem before_feat (c : Dev nD) (t : Fin cfg0.N) (d) : (dats m 0 c).before 0 t d = iblk m c 0 t :=
  before0_0_of m (dats m 0 c) (A_eq m c 0) (after_feat m c) t d
theorem before_stripA (c : Dev nD) (t : Fin cfg0.N) (d) : (dats m 0 c).before 1 t d = stripA m c t d := by
  unfold Dat.before; rw [if_pos (fetch0_1 t)]; rfl
theorem before_stripB (c : Dev nD) (t : Fin cfg0.N) (d) : (dats m 0 c).before 2 t d = stripB m c t d := by
  unfold Dat.before; rw [if_pos (fetch0_2 t)]; rfl

/-! ## The body obligation -/

set_option maxHeartbeats 1000000 in
/-- At every step the body, handed the feature matrix, two freshly fetched strips and the result buffer at
    anything, hands back the first three as found and the result buffer at contents whose rows inside the result
    array are the target's (`cut_step`): all that is asked of the three windows that may overhang. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  change _ ⊢ wp frame (wpE (defs₀ (F := Ideal)) Variants.none c none) Set.univ (bodyAt0 t) _
  unfold bodyAt0
  iintro ⟨HΦ, Ho, ⟨%d0, H0⟩, ⟨%d1, H1⟩, ⟨%d2, H2⟩, ⟨%d3, H3⟩⟩
  rw [before_feat m c t d0, before_stripA m c t d1, before_stripB m c t d2]
  iapply (step_triple (F := Ideal) c Set.univ (grid0.coords t) _ _ _ _ _ _ _ _ (iblk m c 0 t) (stripA m c t d1) (stripB m c t d2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after_feat]; iexact H0
  isplitl [H1]
  · iexists d1
    change _ ⊢ owns (c : Thread nD τ) (st0_1 t) fullShare (win0_1.fill (grid0.coords t) d1 (win0_1.cut (grid0.coords t) ((dats m 0 c).after 1 t)))
    rw [after_stripA, Pipeline.Window.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after_stripB, Pipeline.Window.cut_fill]; try iexact H2
  · iexists stepResult (F := Ideal) (iblk m c 0 t) (stripA m c t d1) (stripB m c t d2)
    change _ ⊢ owns (c : Thread nD τ) (st0_3 t) fullShare (win0_3.fill (grid0.coords t) (stepResult (F := Ideal) (iblk m c 0 t) (stripA m c t d1) (stripB m c t d2)) (win0_3.cut (grid0.coords t) ((dats m 0 c).after 3 t)))
    rw [after_result, Pipeline.Window.cut_fill, ← cut_step m c t d1 d2, Pipeline.Window.fill_cut]; try iexact H3

/-! ## The run -/

set_option backward.isDefEq.respectTransparency.types false in
/-- Every weakly fair execution of @main terminates, with every array of the grid at what the write-backs make
    of it and nothing else touched. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The result array after the last write-back is the target: every step writes back the target's rows, and
    the blocks written back cover the array. -/
theorem result_final (c : Dev nD) : (dats m 0 c).arrAt 3 cfg0.N = target m c :=
  (dats m 0 c).arrAt_eq_of_cover 3 (target m c)
    (fun t _ => by
      show (cfg0.win 3).cut (grid0.coords t) ((dats m 0 c).after 3 t) = _
      rw [after_result]; exact Pipeline.Window.cut_fill _ _ _ _)
    result_blocks_cover

/-- THE RUN, READ: the result array ends holding the two products side by side of the argument arrays, and the
    argument arrays what they held. -/
theorem run : θ_run defs (onTc (τ := τ) (main (F := Ideal))) ⟨m, fun _ => 0, ρ⟩ fun r => ∀ c : Dev nD,
      r.2.mem ((c.tc : Thread nD τ).loc main_v0)
        = Cert.Spec.sideBySide (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (result_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelSide

end
-- ==== Proof.RefIsSpec.lean ====
/-
  The reference program's result is the specification.

  The reference takes the two matrix products `a₁ · x` and `a₂ · x` (each 10000 × 128, every entry the sum over
  the contracted axis of length 10000) and joins them along the column axis into a 10000 × 256 array. Read at an
  entry `(r, q)`: a column `q < 128` falls in the first piece and is entry `(r, q)` of `a₁ · x`; a column
  `q ≥ 128` falls in the second piece and is entry `(r, q - 128)` of `a₂ · x`. In either piece the product's entry
  is the sum over `k` of the left operand at `(r, k)` times the right operand at `(k, column)`, which is the
  specification's `prodAt` term by term: only the names of the indices differ.
-/
import proofs.«151842_g35588099015572_cont_8to1_b_1945_25_alg».proof.Proof.Gen.ReferenceIdeal.Read
import proofs.«151842_g35588099015572_cont_8to1_b_1945_25_alg».proof.Proof.Spec
import Idealize.ShloMosaic.Lib.Pipeline.Value
import Idealize.ShloMosaic.Lib.ValueIdx
import Idealize.ShloMosaic.PureOps.Ideal.Laws

noncomputable section

open scoped BigOperators

namespace Cert.RefSide

open Idealize.ShloMosaic Idealize.ShloMosaic.ValueIdx

/-- First product: the left operand's index for result entry `(r, q)` at contraction position `k` is `(r, k)`. -/
theorem lidx_v0_ix2 (r : Fin 10000) (q : Fin 128) (k : Fin 10000) :
    Cert.ReferenceIdeal.Read.lidx_main_v0 (ix2 r q) k = ix2 r k := by
  funext a; match a with | ⟨0, _⟩ => rfl | ⟨1, _⟩ => rfl

/-- First product: the right operand's index for result entry `(r, q)` at contraction position `k` is `(k, q)`. -/
theorem ridx_v0_ix2 (r : Fin 10000) (q : Fin 128) (k : Fin 10000) :
    Cert.ReferenceIdeal.Read.ridx_main_v0 (ix2 r q) k = ix2 k q := by
  funext a; match a with | ⟨0, _⟩ => rfl | ⟨1, _⟩ => rfl

/-- Second product: the left operand is read at `(r, k)`. -/
theorem lidx_v1_ix2 (r : Fin 10000) (q : Fin 128) (k : Fin 10000) :
    Cert.ReferenceIdeal.Read.lidx_main_v1 (ix2 r q) k = ix2 r k := by
  funext a; match a with | ⟨0, _⟩ => rfl | ⟨1, _⟩ => rfl

/-- Second product: the right operand is read at `(k, q)`. -/
theorem ridx_v1_ix2 (r : Fin 10000) (q : Fin 128) (k : Fin 10000) :
    Cert.ReferenceIdeal.Read.ridx_main_v1 (ix2 r q) k = ix2 k q := by
  funext a; match a with | ⟨0, _⟩ => rfl | ⟨1, _⟩ => rfl

/-- The joined array equals the two products side by side, entry by entry. -/
theorem result_is_spec (x0 : (⟨Cert.ReferenceIdeal.S10000x128, .f32⟩ : BufTy).Contents (Elt Ideal)) (x1 x2 : (⟨Cert.ReferenceIdeal.S10000x10000, .f32⟩ : BufTy).Contents (Elt Ideal)) :
    Cert.ReferenceIdeal.Read.val_main_v2 (F := Ideal) x0 x1 x2 = Cert.Spec.sideBySide x0 x1 x2 := by
  funext i
  -- an entry of the result is a row `r` and a column `q`
  obtain ⟨r, q, rfl⟩ : ∃ (r : Fin 10000) (q : Fin 256), i = ix2 r q := ⟨i 0, i 1, eq_ix2 i⟩
  by_cases h : q.val < 128
  · -- a column below 128 lies in the first piece, at the same coordinates
    unfold Cert.ReferenceIdeal.Read.val_main_v2
    rw [concatenate_pair_apply_left (t := Cert.ReferenceIdeal.S10000x256) (s₁ := Cert.ReferenceIdeal.S10000x128)
      (s₂ := Cert.ReferenceIdeal.S10000x128) (1 : Fin 2) _ _ _ (ix2 r q) rfl (ix2 r (⟨q.val, h⟩ : Fin 128))
      (by intro b; match b with | ⟨0, _⟩ => rfl | ⟨1, _⟩ => rfl)]
    -- that piece is `a₁ · x`; both sides are the same sum over the contracted axis
    rw [Cert.ReferenceIdeal.Read.val_main_v0_apply, Cert.Spec.sideBySide_left _ _ _ r q h]
    unfold Cert.Spec.prodAt
    refine Finset.sum_congr rfl fun k _ => ?_
    rw [lidx_v0_ix2, ridx_v0_ix2]
  · -- a column from 128 on lies in the second piece, 128 columns to the left
    have h' : 128 ≤ q.val := Nat.le_of_not_lt h
    have hq : q.val - 128 < 128 := by have := q.isLt; omega
    unfold Cert.ReferenceIdeal.Read.val_main_v2
    rw [concatenate_pair_apply_right (t := Cert.ReferenceIdeal.S10000x256) (s₁ := Cert.ReferenceIdeal.S10000x128)
      (s₂ := Cert.ReferenceIdeal.S10000x128) (1 : Fin 2) _ _ _ (ix2 r q) rfl rfl (ix2 r (⟨q.val - 128, hq⟩ : Fin 128))
      (by intro b hb; match b, hb with | ⟨0, _⟩, _ => rfl | ⟨1, _⟩, hb => exact absurd rfl hb)
      (by show q.val - 128 + 128 = q.val; omega)]
    -- that piece is `a₂ · x`; again the same sum term by term
    rw [Cert.ReferenceIdeal.Read.val_main_v1_apply, Cert.Spec.sideBySide_right _ _ _ r q h']
    unfold Cert.Spec.prodAt
    refine Finset.sum_congr rfl fun k _ => ?_
    rw [lidx_v1_ix2, ridx_v1_ix2]

end Cert.RefSide

end
-- ==== Proof.lean ====
/-
  The certificate: a 40-step grid kernel that fills a 10000 × 256 array, 256 rows a step, with the product of
  one square matrix by a feature matrix in its left 128 columns and the product of a second square matrix by
  the same features in its right 128 columns, against the reference that forms the two products whole and joins
  them along the columns.

  Over the extended reals both are, entry by entry, the same sum over the contracted axis of 10000 positions
  (`Cert.Spec.sideBySide`), taken in the same order, so the equality needs no algebraic law and the inputs'
  finiteness is never used. The kernel's last step works on strips that overhang the square matrices by 240
  rows; the values found there reach only result rows that are never written back (a row of a product depends
  on the same row of its left factor alone). At the word level, where a matrix product is an opaque function of
  its whole operands, nothing is said of the result: that program's frame is proved from proof data that only
  constrain the staging buffers to hold something.

  The pieces: `Spec` (the function both sides compute), `BodyTriple` (one step on its staging blocks),
  `StepValue` (a step's result block entry by entry), `BlockFacts` (where the blocks sit and that the result's
  blocks cover the array), `KernelRun` (the idealized kernel's run with the result named), `KernelFrame` (the
  word-level kernel's frame), `RefIsSpec` (the reference's result is the same function).
-/
import proofs.«151842_g35588099015572_cont_8to1_b_1945_25_alg».proof.Defs
import proofs.«151842_g35588099015572_cont_8to1_b_1945_25_alg».proof.Proof.Gen.Kernel
import proofs.«151842_g35588099015572_cont_8to1_b_1945_25_alg».proof.Proof.Gen.KernelIdeal
import proofs.«151842_g35588099015572_cont_8to1_b_1945_25_alg».proof.Proof.Gen.ReferenceIdeal
import proofs.«151842_g35588099015572_cont_8to1_b_1945_25_alg».proof.Proof.Gen.Pre_finite_inputs
import proofs.«151842_g35588099015572_cont_8to1_b_1945_25_alg».proof.Proof.Gen.ReferenceIdeal.Run
import proofs.«151842_g35588099015572_cont_8to1_b_1945_25_alg».proof.Proof.Gen.ReferenceIdeal.Read
import proofs.«151842_g35588099015572_cont_8to1_b_1945_25_alg».proof.Proof.KernelFrame
import proofs.«151842_g35588099015572_cont_8to1_b_1945_25_alg».proof.Proof.KernelRun
import proofs.«151842_g35588099015572_cont_8to1_b_1945_25_alg».proof.Proof.RefIsSpec
import Idealize.ShloMosaic.Adequacy
import Idealize.ShloMosaic.Init

noncomputable section

namespace Cert.Proof

open Idealize.ShloMosaic Idealize.SL.Sem

/-- The idealized kernel terminates, faults nowhere and keeps its arguments: its run with the result dropped. -/
theorem frame_kernelIdeal : Cert.frame_KernelIdeal := fun m ρ _ =>
  (θ_run Cert.KernelIdeal.defs _ _).mono (fun _ h c => (h c).2) (Cert.KernelSide.run m ρ)

/-- The reference likewise. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the two products side by side. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.RefSide.result_is_spec, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  Cert.KernelFrame.frame, frame_kernelIdeal, frame_referenceIdeal, trivial, algebraic⟩

end Cert.Proof

end
